-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x16 .f32) (main_arg1 : FVec F S16x16 .f32) (main_arg2 : FVec F S16 .f32) (main_arg3 : FVec F S16x2 .f32) (main_arg4 : FVec F S2 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S16x1000000 : Shape := ⟨2, ![16, 1000000]⟩
abbrev S16x1 : Shape := ⟨2, ![16, 1]⟩
abbrev S2x16 : Shape := ⟨2, ![2, 16]⟩
abbrev S_ : Shape := ⟨0, ![]⟩
abbrev S6x16 : Shape := ⟨2, ![6, 16]⟩
abbrev S8x16 : Shape := ⟨2, ![8, 16]⟩
abbrev S6 : Shape := ⟨1, ![6]⟩
abbrev S8 : Shape := ⟨1, ![8]⟩
abbrev S8x1 : Shape := ⟨2, ![8, 1]⟩
abbrev S1000000 : Shape := ⟨1, ![1000000]⟩
abbrev S16x65536 : Shape := ⟨2, ![16, 65536]⟩
abbrev S65536 : Shape := ⟨1, ![65536]⟩
abbrev S8x65536 : Shape := ⟨2, ![8, 65536]⟩
abbrev S1x65536 : Shape := ⟨2, ![1, 65536]⟩

abbrev nBuf : Space → Nat
  | .hbm => 18
  | .vmem => 10
  | .smem => 0
  | _ => 0

abbrev bufTy : (tb : Table) → Fin (tcTables nBuf tb) → BufTy
  | .hbm, ⟨0, _⟩ => ⟨S1000000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S16x1000000, .f32⟩
  | .hbm, ⟨6, _⟩ => ⟨S16x16, .f32⟩
  | .hbm, ⟨7, _⟩ => ⟨S16x1, .f32⟩
  | .hbm, ⟨8, _⟩ => ⟨S2x16, .f32⟩
  | .hbm, ⟨9, _⟩ => ⟨S_, .f32⟩
  | .hbm, ⟨10, _⟩ => ⟨S6x16, .f32⟩
  | .hbm, ⟨11, _⟩ => ⟨S8x16, .f32⟩
  | .hbm, ⟨12, _⟩ => ⟨S_, .f32⟩
  | .hbm, ⟨13, _⟩ => ⟨S6, .f32⟩
  | .hbm, ⟨14, _⟩ => ⟨S8, .f32⟩
  | .hbm, ⟨15, _⟩ => ⟨S8x1, .f32⟩
  | .hbm, ⟨16, _⟩ => ⟨S1000000, .f32⟩
  | .hbm, ⟨17, _⟩ => ⟨S1000000, .f32⟩
  | .local _ .vmem, ⟨0, _⟩ => ⟨S16x65536, .f32⟩
  | .local _ .vmem, ⟨1, _⟩ => ⟨S16x65536, .f32⟩
  | .local _ .vmem, ⟨2, _⟩ => ⟨S16x16, .f32⟩
  | .local _ .vmem, ⟨3, _⟩ => ⟨S16x1, .f32⟩
  | .local _ .vmem, ⟨4, _⟩ => ⟨S8x16, .f32⟩
  | .local _ .vmem, ⟨5, _⟩ => ⟨S8x1, .f32⟩
  | .local _ .vmem, ⟨6, _⟩ => ⟨S65536, .f32⟩
  | .local _ .vmem, ⟨7, _⟩ => ⟨S65536, .f32⟩
  | .local _ .vmem, ⟨8, _⟩ => ⟨S65536, .f32⟩
  | .local _ .vmem, ⟨9, _⟩ => ⟨S65536, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_cst_0 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S65536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1000000x16_S16x1000000_1_0 : S1000000x16.Transposes [1, 0] S16x1000000
  transposes_S16x16_S16x16_1_0 : S16x16.Transposes [1, 0] S16x16
  shapeCasts_S16_S16x1 : S16.ShapeCasts S16x1
  transposes_S16x2_S2x16_1_0 : S16x2.Transposes [1, 0] S2x16
  bcast_S_S6x16 : S_.BroadcastsInDim S6x16 (![] : Fin 0 → Fin S6x16.rank)
  concatenates_S2x16_S6x16_S8x16_d0 : Shape.Concatenates [S2x16, S6x16] S8x16 0
  bcast_S_S6 : S_.BroadcastsInDim S6 (![] : Fin 0 → Fin S6.rank)
  concatenates_S2_S6_S8_d0 : Shape.Concatenates [S2, S6] S8 0
  shapeCasts_S8_S8x1 : S8.ShapeCasts S8x1
  inb_S16x65536_S16x65536_0_0 : ∀ a, (![0, 0] : Fin 2 → Nat) a + S16x65536.size a ≤ S16x65536.size a
  h_S16x65536 : 0 < S16x65536.numel
  shapeCasts_S16x65536_S16x65536 : S16x65536.ShapeCasts S16x65536
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x65536 : S16x1.Broadcasts S16x65536
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x65536 : S8x1.Broadcasts S8x65536
  slices_S8x65536_o0_0_S1x65536 : S8x65536.Slices ![0, 0] S1x65536
  shapeCasts_S1x65536_S65536 : S1x65536.ShapeCasts S65536
  inb_S65536_S65536_0 : ∀ a, (![0] : Fin 1 → Nat) a + S65536.size a ≤ S65536.size a
  h_S65536 : 0 < S65536.numel
  slices_S8x65536_o1_0_S1x65536 : S8x65536.Slices ![1, 0] S1x65536
  dot_S16x16_S16x65536_S16x65536_1_0_0_1_n_n_wf : DotDims.WF S16x16 S16x65536 S16x65536 [1] [0] [0] [1] [] []
  dot_S8x16_S16x65536_S8x65536_1_0_0_1_n_n_wf : DotDims.WF S8x16 S16x65536 S8x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x65536.size a < S16x1000000.size a
  hwx0_0 : ∀ i : grid0.Coords, EltTy.bits .f32 = 32 ∨ (Rect.unit (s := S16x1000000) (fun a => cc0_transform_0 i a * S16x65536.size a) (fun a => (Pipeline.Clip.of (cc0_transform_0 i a) (S16x65536.size a) (S16x1000000.size a)).extent (S16x65536.size a)) fun a => Pipeline.Clip.inb (Pipeline.Clip.ok_of (hstart0_0 i a))).WholeWords (EltTy.packing .f32)
  hwxs0_0 : ∀ i : grid0.Coords, EltTy.bits .f32 = 32 ∨ (Rect.unit (s := S16x65536) (fun _ => 0) (fun a => (Pipeline.Clip.of (cc0_transform_0 i a) (S16x65536.size a) (S16x1000000.size a)).extent (S16x65536.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S65536.size a < S1000000.size a
  hwx0_5 : ∀ i : grid0.Coords, EltTy.bits .f32 = 32 ∨ (Rect.unit (s := S1000000) (fun a => cc0_transform_5 i a * S65536.size a) (fun a => (Pipeline.Clip.of (cc0_transform_5 i a) (S65536.size a) (S1000000.size a)).extent (S65536.size a)) fun a => Pipeline.Clip.inb (Pipeline.Clip.ok_of (hstart0_5 i a))).WholeWords (EltTy.packing .f32)
  hwxs0_5 : ∀ i : grid0.Coords, EltTy.bits .f32 = 32 ∨ (Rect.unit (s := S65536) (fun _ => 0) (fun a => (Pipeline.Clip.of (cc0_transform_5 i a) (S65536.size a) (S1000000.size a)).extent (S65536.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S65536.size a < S1000000.size a
  hwx0_6 : ∀ i : grid0.Coords, EltTy.bits .f32 = 32 ∨ (Rect.unit (s := S1000000) (fun a => cc0_transform_6 i a * S65536.size a) (fun a => (Pipeline.Clip.of (cc0_transform_6 i a) (S65536.size a) (S1000000.size a)).extent (S65536.size a)) fun a => Pipeline.Clip.inb (Pipeline.Clip.ok_of (hstart0_6 i a))).WholeWords (EltTy.packing .f32)
  hwxs0_6 : ∀ i : grid0.Coords, EltTy.bits .f32 = 32 ∨ (Rect.unit (s := S65536) (fun _ => 0) (fun a => (Pipeline.Clip.of (cc0_transform_6 i a) (S65536.size a) (S1000000.size a)).extent (S65536.size a)) fun a => (Nat.zero_add _).trans_le (Pipeline.Clip.extent_le (Pipeline.Clip.ok_of (hstart0_6 i a)))).WholeWords (EltTy.packing .f32)

variable [Facts₀]

def dot_S16x16_S16x65536_S16x65536_1_0_0_1_n_n : DotDims S16x16 S16x65536 S16x65536 where
  lhsContracting := [1]
  rhsContracting := [0]
  lhsNonContracting := [0]
  rhsNonContracting := [1]
  lhsBatch := []
  rhsBatch := []
  wf := dot_S16x16_S16x65536_S16x65536_1_0_0_1_n_n_wf
def dot_S8x16_S16x65536_S8x65536_1_0_0_1_n_n : DotDims S8x16 S16x65536 S8x65536 where
  lhsContracting := [1]
  rhsContracting := [0]
  lhsNonContracting := [0]
  rhsNonContracting := [1]
  lhsBatch := []
  rhsBatch := []
  wf := dot_S8x16_S16x65536_S8x65536_1_0_0_1_n_n_wf

abbrev win0_0 : Pipeline.Window sig grid0 :=
  Pipeline.Window.ofSpecClip (Memref.whole main_call0_v0) S16x65536.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v0_0) S65536.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v0_1) S65536.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S1x16 : Shape := ⟨2, ![1, 16]⟩
abbrev S_ : Shape := ⟨0, ![]⟩
abbrev S1000000x2 : Shape := ⟨2, ![1000000, 2]⟩
abbrev S1x2 : Shape := ⟨2, ![1, 2]⟩
abbrev S1000000x1 : Shape := ⟨2, ![1000000, 1]⟩
abbrev S1000000 : Shape := ⟨1, ![1000000]⟩

abbrev nBuf : Space → Nat
  | .hbm => 24
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S1000000x16, .f32⟩
  | .hbm, ⟨6, _⟩ => ⟨S1x16, .f32⟩
  | .hbm, ⟨7, _⟩ => ⟨S1000000x16, .f32⟩
  | .hbm, ⟨8, _⟩ => ⟨S1000000x16, .f32⟩
  | .hbm, ⟨9, _⟩ => ⟨S_, .f32⟩
  | .hbm, ⟨10, _⟩ => ⟨S1000000x16, .f32⟩
  | .hbm, ⟨11, _⟩ => ⟨S1000000x16, .i1⟩
  | .hbm, ⟨12, _⟩ => ⟨S_, .f32⟩
  | .hbm, ⟨13, _⟩ => ⟨S1000000x16, .f32⟩
  | .hbm, ⟨14, _⟩ => ⟨S1000000x16, .f32⟩
  | .hbm, ⟨15, _⟩ => ⟨S1000000x16, .f32⟩
  | .hbm, ⟨16, _⟩ => ⟨S1000000x2, .f32⟩
  | .hbm, ⟨17, _⟩ => ⟨S1x2, .f32⟩
  | .hbm, ⟨18, _⟩ => ⟨S1000000x2, .f32⟩
  | .hbm, ⟨19, _⟩ => ⟨S1000000x2, .f32⟩
  | .hbm, ⟨20, _⟩ => ⟨S1000000x1, .f32⟩
  | .hbm, ⟨21, _⟩ => ⟨S1000000, .f32⟩
  | .hbm, ⟨22, _⟩ => ⟨S1000000x1, .f32⟩
  | .hbm, ⟨23, _⟩ => ⟨S1000000, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  dot_S1000000x16_S16x16_S1000000x16_1_0_0_1_n_n_wf : DotDims.WF S1000000x16 S16x16 S1000000x16 [1] [0] [0] [1] [] []
  dot_S1000000x16_S16x2_S1000000x2_1_0_0_1_n_n_wf : DotDims.WF S1000000x16 S16x2 S1000000x2 [1] [0] [0] [1] [] []

variable [Facts₀]

def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x2_S1000000x2_1_0_0_1_n_n : DotDims S1000000x16 S16x2 S1000000x2 where
  lhsContracting := [1]
  rhsContracting := [0]
  lhsNonContracting := [0]
  rhsNonContracting := [1]
  lhsBatch := []
  rhsBatch := []
  wf := dot_S1000000x16_S16x2_S1000000x2_1_0_0_1_n_n_wf

class Facts : Prop extends Facts₀ where

variable [Facts]
-- ==== Proof.BodyBits.lean ====
/-
  The kernel body as one step of separation logic, for any float instance: run on seven whole staging
  buffers — the transposed input block x (16 × 65536), the first layer's transposed weights (16 × 16) and
  bias column (16 × 1), the second layer's padded transposed weights (8 × 16) and padded bias column (8 × 1),
  and the two result rows (65536 each) — it reads the five inputs whole, leaves them as they were, and
  overwrites each result buffer whole: the first with row 0 and the second with row 1 of
  W2p · max(z, c·z) + b2p, where z = W1t · x + b1 (the two payload terms of the body's skeleton).
  The body also reads each result buffer once before it overwrites it; that value is never used.
-/
import proofs.«111864_g89618787598748_cont_9to1c4b_779_5_alg».proof.Proof.Gen.Kernel.Skeleton
import proofs.«111864_g89618787598748_cont_9to1c4b_779_5_alg».proof.Proof.Gen.Kernel.Launch
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole-buffer rectangle of a result row: offset zero, the buffer's own size. -/
abbrev rRow : Rect S65536 := Rect.unit (s := S65536) ![0] S65536.size inb_S65536_S65536_0

/-- One store through the whole-buffer rectangle covers the buffer. -/
theorem cover_row (p0 : Vec F S65536 .f32) (y : S65536.Idx) :
    ∃ pc ∈ ([⟨rRow, p0⟩] : List (View.Piece (Elt F) S65536 .f32)), y ∈ pc.1.set :=
  View.cover_of_tiled [⟨rRow, p0⟩] S65536.size (by rfl) y

set_option maxHeartbeats 2000000 in
/-- The body's triple: five whole loads, the two dead loads of the result buffers, two whole stores. -/
theorem sound_kernel (c : Dev nD) (E : Set ℕ) (i : grid0.Coords)
    (arg1 : Memref sig .tc .vmem S16x65536 .f32) (harg1 : arg1.IsWhole) (arg2 : Memref sig .tc .vmem S16x16 .f32) (harg2 : arg2.IsWhole)
    (arg3 : Memref sig .tc .vmem S16x1 .f32) (harg3 : arg3.IsWhole) (arg4 : Memref sig .tc .vmem S8x16 .f32) (harg4 : arg4.IsWhole)
    (arg5 : Memref sig .tc .vmem S8x1 .f32) (harg5 : arg5.IsWhole) (arg6 : Memref sig .tc .vmem S65536 .f32) (harg6 : arg6.IsWhole)
    (arg7 : Memref sig .tc .vmem S65536 .f32) (harg7 : arg7.IsWhole)
    (x0 : Vec F S16x65536 .f32) (x1 : Vec F S16x16 .f32) (x2 : Vec F S16x1 .f32) (x3 : Vec F S8x16 .f32) (x4 : Vec F S8x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x2 x3 x4)
            ∗ owns (c : Thread nD τ) arg7 fullShare (k0_pay3 x0 x1 x2 x3 x4)) -∗ K ⟨⟩))
      ⊢ wp frame (wpE (defs₀ (F := F)) Variants.none c none) E
          (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_row _), View.canon_unit_zero hz1]
    simp only [View.readAt_eq_ld, View.ld_unit_zero (S := S16x65536) hz2, View.ld_unit_zero (S := S16x16) hz2,
      View.ld_unit_zero (S := S16x1) hz2, View.ld_unit_zero (S := S8x16) hz2, View.ld_unit_zero (S := S8x1) hz2]
  · iexists _; isplitr
    swap; · iexact H6
    ipureintro
    rw [View.read_writes_eq_canon _ _ _ (cover_row _), View.canon_unit_zero hz1]
    simp only [View.readAt_eq_ld, View.ld_unit_zero (S := S16x65536) hz2, View.ld_unit_zero (S := S16x16) hz2,
      View.ld_unit_zero (S := S16x1) hz2, View.ld_unit_zero (S := S8x16) hz2, View.ld_unit_zero (S := S8x1) hz2]

end Cert.Kernel.Body

end
-- ==== Proof.FrameBits.lean ====
/-
  The frame of the word-level program: it runs to the end, faults nowhere, and leaves its five argument
  arrays as they were. Nothing is said of what the body leaves in any staging buffer: the last block of the
  transposed input overhangs the array, so the tail of its staging buffer holds words that nothing names, and
  at the word level the matrix product carries them into the result buffers. The frame does not need them:
  every access of the body is a whole-buffer load or store, which is in range whatever the buffers hold, and
  the argument arrays are never written (they are not even windows of the pipeline: the windows are the
  transposed and padded copies the host operations make). So the proof data relates what the body finds in a
  buffer to what it leaves there by the relation that always holds.
-/
import proofs.«111864_g89618787598748_cont_9to1c4b_779_5_alg».proof.Proof.BodyBits
import proofs.«111864_g89618787598748_cont_9to1c4b_779_5_alg».proof.Proof.Gen.Kernel.Frame
import proofs.«111864_g89618787598748_cont_9to1c4b_779_5_alg».proof.Proof.Gen.Kernel.Points
import Idealize.ShloMosaic.Lib.Pipeline.Frame

set_option maxRecDepth 16384

noncomputable section

namespace Cert.Kernel.BitsFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the windows' arrays as the region finds them; of what the body leaves in a staging
    buffer, nothing; the class invariant; full shares; nothing owed. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the seven current staging buffers hold, the body runs and hands each back at
    some contents. -/
theorem body_obligation (c : Dev nD) : (rdats (F := F) m c).BodyObligation (defs₀ (F := F)) Variants.none () Set.univ := fun t Y _ => by
  rw [bigSep_W0, bigSep_W0]
  show iprop((rdats (F := F) m c).Φ t.castSucc ∗ (rdats (F := F) m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3)
      ∗ owns (c : Thread nD τ) (st0_4 t) fullShare (Y 4) ∗ owns (c : Thread nD τ) (st0_5 t) fullShare (Y 5)
      ∗ owns (c : Thread nD τ) (st0_6 t) fullShare (Y 6))
    ⊢ wp frame (wpE (defs₀ (F := F)) Variants.none c none) Set.univ (bodyAt0 t) (fun _ =>
        iprop((rdats (F := F) m c).Φ t.succ ∗ (rdats (F := F) m c).owesAt () t.succ
          ∗ (∃ X, ⌜True⌝ ∗ owns (c : Thread nD τ) (st0_0 t) fullShare X) ∗ (∃ X, ⌜True⌝ ∗ owns (c : Thread nD τ) (st0_1 t) fullShare X)
          ∗ (∃ X, ⌜True⌝ ∗ owns (c : Thread nD τ) (st0_2 t) fullShare X) ∗ (∃ X, ⌜True⌝ ∗ owns (c : Thread nD τ) (st0_3 t) fullShare X)
          ∗ (∃ X, ⌜True⌝ ∗ owns (c : Thread nD τ) (st0_4 t) fullShare X) ∗ (∃ X, ⌜True⌝ ∗ owns (c : Thread nD τ) (st0_5 t) fullShare X)
          ∗ (∃ X, ⌜True⌝ ∗ owns (c : Thread nD τ) (st0_6 t) fullShare X)))
  rw [show (rdats (F := F) m c).Φ t.succ = (rdats (F := F) m c).Φ t.castSucc from rfl,
    show (rdats (F := F) m c).owesAt () t.succ = (rdats (F := F) m c).owesAt () t.castSucc from rfl]
  unfold bodyAt0
  iintro ⟨HΦ, Ho, H0, H1, H2, H3, H4, H5, H6⟩
  iapply (sound_kernel c Set.univ (grid0.coords t) _ _ _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexists _; isplitr; · ipureintro; trivial
                  iexact H0
  isplitl [H1]; · iexists _; isplitr; · ipureintro; trivial
                  iexact H1
  isplitl [H2]; · iexists _; isplitr; · ipureintro; trivial
                  iexact H2
  isplitl [H3]; · iexists _; isplitr; · ipureintro; trivial
                  iexact H3
  isplitl [H4]; · iexists _; isplitr; · ipureintro; trivial
                  iexact H4
  isplitl [H5]; · iexists _; isplitr; · ipureintro; trivial
                  iexact H5
  · iexists _; isplitr; · ipureintro; trivial
    iexact H6

theorem share_full (c : Dev nD) (w : Fin cfg0.W) : (rdats (F := F) m c).share w = fullShare := by
  unfold RDat.share; split <;> rfl

set_option backward.isDefEq.respectTransparency.types false in
/-- Every weakly fair execution of @main terminates without a fault; each array no window stages ends as the
    region found it. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := share_full m)
    (howed := fun _ _ => rfl) (V := V m) (hmain := hmain m Variants.none) (hA := fun _ _ => rfl) (hΦ := fun _ _ => rfl)

/-- The frame: the five argument arrays are among the arrays no window stages, and no host operation before
    the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.BitsFrame

end
-- ==== Proof.Body.lean ====
/-
  The kernel body as one step of separation logic, for any float instance: run on seven whole staging
  buffers — the transposed input block x (16 × 65536), the first layer's transposed weights (16 × 16) and
  bias column (16 × 1), the second layer's padded transposed weights (8 × 16) and padded bias column (8 × 1),
  and the two result rows (65536 each) — it reads the five inputs whole, leaves them as they were, and
  overwrites each result buffer whole: the first with row 0 and the second with row 1 of
  W2p · max(z, c·z) + b2p, where z = W1t · x + b1 (the two payload terms of the body's skeleton).
  The body also reads each result buffer once before it overwrites it; that value is never used.
-/
import proofs.«111864_g89618787598748_cont_9to1c4b_779_5_alg».proof.Proof.Gen.KernelIdeal.Skeleton
import proofs.«111864_g89618787598748_cont_9to1c4b_779_5_alg».proof.Proof.Gen.KernelIdeal.Launch
import Idealize.ShloMosaic.Lib.Pipeline.FrameBody
import Idealize.ShloMosaic.Lib.Pipeline.Kit
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole-buffer rectangle of a result row: offset zero, the buffer's own size. -/
abbrev rRow : Rect S65536 := Rect.unit (s := S65536) ![0] S65536.size inb_S65536_S65536_0

/-- One store through the whole-buffer rectangle covers the buffer. -/
theorem cover_row (p0 : Vec F S65536 .f32) (y : S65536.Idx) :
    ∃ pc ∈ ([⟨rRow, p0⟩] : List (View.Piece (Elt F) S65536 .f32)), y ∈ pc.1.set :=
  View.cover_of_tiled [⟨rRow, p0⟩] S65536.size (by rfl) y

set_option maxHeartbeats 2000000 in
/-- The body's triple: five whole loads, the two dead loads of the result buffers, two whole stores. -/
theorem sound_kernel (c : Dev nD) (E : Set ℕ) (i : grid0.Coords)
    (arg1 : Memref sig .tc .vmem S16x65536 .f32) (harg1 : arg1.IsWhole) (arg2 : Memref sig .tc .vmem S16x16 .f32) (harg2 : arg2.IsWhole)
    (arg3 : Memref sig .tc .vmem S16x1 .f32) (harg3 : arg3.IsWhole) (arg4 : Memref sig .tc .vmem S8x16 .f32) (harg4 : arg4.IsWhole)
    (arg5 : Memref sig .tc .vmem S8x1 .f32) (harg5 : arg5.IsWhole) (arg6 : Memref sig .tc .vmem S65536 .f32) (harg6 : arg6.IsWhole)
    (arg7 : Memref sig .tc .vmem S65536 .f32) (harg7 : arg7.IsWhole)
    (x0 : Vec F S16x65536 .f32) (x1 : Vec F S16x16 .f32) (x2 : Vec F S16x1 .f32) (x3 : Vec F S8x16 .f32) (x4 : Vec F S8x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x2 x3 x4)
            ∗ owns (c : Thread nD τ) arg7 fullShare (k0_pay3 x0 x1 x2 x3 x4)) -∗ K ⟨⟩))
      ⊢ wp frame (wpE (defs₀ (F := F)) Variants.none c none) E
          (cc0__mlp_body i arg1 harg1 arg2 harg2 arg3 harg3 arg4 harg4 arg5 harg5 arg6 harg6 arg7 harg7) K := by
  simp only [cc0__mlp_body_eq_skeleton]; unfold cc0__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_row _), View.canon_unit_zero hz1]
    simp only [View.readAt_eq_ld, View.ld_unit_zero (S := S16x65536) hz2, View.ld_unit_zero (S := S16x16) hz2,
      View.ld_unit_zero (S := S16x1) hz2, View.ld_unit_zero (S := S8x16) hz2, View.ld_unit_zero (S := S8x1) hz2]
  · iexists _; isplitr
    swap; · iexact H6
    ipureintro
    rw [View.read_writes_eq_canon _ _ _ (cover_row _), View.canon_unit_zero hz1]
    simp only [View.readAt_eq_ld, View.ld_unit_zero (S := S16x65536) hz2, View.ld_unit_zero (S := S16x16) hz2,
      View.ld_unit_zero (S := S16x1) hz2, View.ld_unit_zero (S := S8x16) hz2, View.ld_unit_zero (S := S8x1) hz2]

end Cert.KernelIdeal.Body

end
-- ==== Proof.Spec.lean ====
/-
  The function both programs compute, over the extended reals: a two-layer perceptron applied to each of
  the million rows of X. For row n and hidden unit k the pre-activation is z = Σ_j X[n,j]·W1[j,k] + b1[k];
  the activation is the leaky rectifier with slope c (the single-precision number nearest 0.01, read
  exactly: c = 5368709 / 2^29); output r ∈ {0, 1} of row n is Σ_k lrelu(z_k)·W2[k,r] + b2[r].
  The rectifier has two spellings: "z if z ≥ 0, else c·z" and "the larger of z and c·z". They agree on every
  extended real because 0 < c < 1: for z ≥ 0 (and for +∞) c·z ≤ z, for z < 0 (and for −∞) z ≤ c·z.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The rectifier's slope: the single-precision word 0x3C23D70A, read exactly. -/
def slope : EReal := Ideal.ofBits .f32 0x3C23D70A#32

/-- It is the rational 5368709 / 536870912 (a little below 1/100). -/
theorem slope_eq : slope = ((5368709 / 536870912 : ℝ) : EReal) := by
  unfold slope
  simp [Ideal.ofBits, Ideal.ieee, -EReal.coe_mul]; norm_num

/-- The single-precision zero word is the real zero. -/
theorem zero_eq : Ideal.ofBits .f32 0x00000000#32 = (0 : EReal) := Ideal.ofBits_zero_f32

/-- The leaky rectifier: the identity on the non-negative extended reals, multiplication by the slope below zero. -/
def lrelu (z : EReal) : EReal := if 0 ≤ z then z else slope * z

/-- The compare-and-select spelling. -/
theorem select_eq_lrelu (z : EReal) : Scalar.select (Ideal.cmp .oge z 0) z (slope * z) = lrelu z := by
  unfold lrelu Scalar.select Ideal.cmp
  by_cases h : (0 : EReal) ≤ z
  · simp [h]
  · simp [h]

/-- The maximum spelling: for 0 < c < 1 the larger of z and c·z is z when z ≥ 0 and c·z when z < 0. -/
theorem max_eq_lrelu (z : EReal) : max z (slope * z) = lrelu z := by
  unfold lrelu
  rw [slope_eq]
  induction z using EReal.rec with
  | bot =>
    rw [EReal.coe_mul_bot_of_pos (by norm_num)]
    simp
  | coe r =>
    rw [← EReal.coe_mul]
    by_cases h : 0 ≤ r
    · have h' : (5368709 / 536870912 : ℝ) * r ≤ r := by nlinarith
      rw [if_pos (by exact_mod_cast h)]
      exact max_eq_left (by exact_mod_cast h')
    · have h0 : r < 0 := lt_of_not_ge h
      have h' : r ≤ (5368709 / 536870912 : ℝ) * r := by nlinarith
      rw [if_neg (by intro hh; exact h (by exact_mod_cast hh))]
      exact max_eq_right (by exact_mod_cast h')
  | top =>
    rw [EReal.coe_mul_top_of_pos (by norm_num)]
    simp

/-- The shapes of the five arguments and of a result, by their extents. -/
abbrev SX : Shape := ⟨2, ![1000000, 16]⟩
abbrev SW1 : Shape := ⟨2, ![16, 16]⟩
abbrev Sb1 : Shape := ⟨1, ![16]⟩
abbrev SW2 : Shape := ⟨2, ![16, 2]⟩
abbrev Sb2 : Shape := ⟨1, ![2]⟩
abbrev SOut : Shape := ⟨1, ![1000000]⟩

/-- Hidden unit k's pre-activation on row n. -/
def pre (X : SX.Idx → EReal) (W1 : SW1.Idx → EReal) (b1 : Sb1.Idx → EReal) (n : Fin 1000000) (k : Fin 16) : EReal :=
  (∑ j : Fin 16, X (ix2 n j) * W1 (ix2 j k)) + b1 (ix1 k)

/-- Output r of row n. -/
def out (X : SX.Idx → EReal) (W1 : SW1.Idx → EReal) (b1 : Sb1.Idx → EReal) (W2 : SW2.Idx → EReal) (b2 : Sb2.Idx → EReal)
    (r : Fin 2) (n : Fin 1000000) : EReal :=
  (∑ k : Fin 16, lrelu (pre X W1 b1 n k) * W2 (ix2 k r)) + b2 (ix1 r)

/-- Output r as an array over the rows. -/
def outRow (X : SX.Idx → EReal) (W1 : SW1.Idx → EReal) (b1 : Sb1.Idx → EReal) (W2 : SW2.Idx → EReal) (b2 : Sb2.Idx → EReal)
    (r : Fin 2) : SOut.Idx → EReal := fun i => out X W1 b1 W2 b2 r (i 0)

end Cert.Mlp

end
-- ==== Proof.Payload.lean ====
/-
  The body's arithmetic at one element, over the extended reals. Element j of the first result row is
  Σ_k W2p[0,k] · lrelu(Σ_i W1t[k,i] · x[i,j] + b1[k,0]) + b2p[0,0], and of the second the same with row 1:
  each matrix product, read at an element, is the sum over its sixteen contracted positions; the bias columns are
  broadcast along the lanes; the larger of z and c·z is the leaky rectifier of z. In particular element j
  depends on the input block x only through its column j.
-/
import proofs.«111864_g89618787598748_cont_9to1c4b_779_5_alg».proof.Proof.Gen.KernelIdeal.Skeleton
import proofs.«111864_g89618787598748_cont_9to1c4b_779_5_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.Mlp
open Idealize.ShloMosaic Idealize.ShloMosaic.ValueIdx

theorem lhs1_0 (i : S16x65536.Idx) (q : dot_S16x16_S16x65536_S16x65536_1_0_0_1_n_n.contr.Idx) : (dot_S16x16_S16x65536_S16x65536_1_0_0_1_n_n.lhsIdx i q 0).val = (i 0).val := by
  unfold DotDims.lhsIdx
  rw [dif_neg (show ¬(0 : Fin S16x16.rank) ∈ dot_S16x16_S16x65536_S16x65536_1_0_0_1_n_n.lhsBatch by decide), dif_pos (show (0 : Fin S16x16.rank) ∈ dot_S16x16_S16x65536_S16x65536_1_0_0_1_n_n.lhsNonContracting by decide)]
  rfl
theorem lhs1_1 (i : S16x65536.Idx) (q : dot_S16x16_S16x65536_S16x65536_1_0_0_1_n_n.contr.Idx) : (dot_S16x16_S16x65536_S16x65536_1_0_0_1_n_n.lhsIdx i q 1).val = (q ⟨0, by decide⟩).val :=
  dot_S16x16_S16x65536_S16x65536_1_0_0_1_n_n.lhsIdx_val_of_single rfl i q
theorem rhs1_0 (i : S16x65536.Idx) (q : dot_S16x16_S16x65536_S16x65536_1_0_0_1_n_n.contr.Idx) : (dot_S16x16_S16x65536_S16x65536_1_0_0_1_n_n.rhsIdx i q 0).val = (q ⟨0, by decide⟩).val :=
  dot_S16x16_S16x65536_S16x65536_1_0_0_1_n_n.rhsIdx_val_of_single rfl i q
theorem rhs1_1 (i : S16x65536.Idx) (q : dot_S16x16_S16x65536_S16x65536_1_0_0_1_n_n.contr.Idx) : (dot_S16x16_S16x65536_S16x65536_1_0_0_1_n_n.rhsIdx i q 1).val = (i 1).val := by
  unfold DotDims.rhsIdx
  rw [dif_neg (show ¬(1 : Fin S16x65536.rank) ∈ dot_S16x16_S16x65536_S16x65536_1_0_0_1_n_n.rhsBatch by decide), dif_pos (show (1 : Fin S16x65536.rank) ∈ dot_S16x16_S16x65536_S16x65536_1_0_0_1_n_n.rhsNonContracting by decide)]
  rfl

theorem lhs2_0 (i : S8x65536.Idx) (q : dot_S8x16_S16x65536_S8x65536_1_0_0_1_n_n.contr.Idx) : (dot_S8x16_S16x65536_S8x65536_1_0_0_1_n_n.lhsIdx i q 0).val = (i 0).val := by
  unfold DotDims.lhsIdx
  rw [dif_neg (show ¬(0 : Fin S8x16.rank) ∈ dot_S8x16_S16x65536_S8x65536_1_0_0_1_n_n.lhsBatch by decide), dif_pos (show (0 : Fin S8x16.rank) ∈ dot_S8x16_S16x65536_S8x65536_1_0_0_1_n_n.lhsNonContracting by decide)]
  rfl
theorem lhs2_1 (i : S8x65536.Idx) (q : dot_S8x16_S16x65536_S8x65536_1_0_0_1_n_n.contr.Idx) : (dot_S8x16_S16x65536_S8x65536_1_0_0_1_n_n.lhsIdx i q 1).val = (q ⟨0, by decide⟩).val :=
  dot_S8x16_S16x65536_S8x65536_1_0_0_1_n_n.lhsIdx_val_of_single rfl i q
theorem rhs2_0 (i : S8x65536.Idx) (q : dot_S8x16_S16x65536_S8x65536_1_0_0_1_n_n.contr.Idx) : (dot_S8x16_S16x65536_S8x65536_1_0_0_1_n_n.rhsIdx i q 0).val = (q ⟨0, by decide⟩).val :=
  dot_S8x16_S16x65536_S8x65536_1_0_0_1_n_n.rhsIdx_val_of_single rfl i q
theorem rhs2_1 (i : S8x65536.Idx) (q : dot_S8x16_S16x65536_S8x65536_1_0_0_1_n_n.contr.Idx) : (dot_S8x16_S16x65536_S8x65536_1_0_0_1_n_n.rhsIdx i q 1).val = (i 1).val := by
  unfold DotDims.rhsIdx
  rw [dif_neg (show ¬(1 : Fin S16x65536.rank) ∈ dot_S8x16_S16x65536_S8x65536_1_0_0_1_n_n.rhsBatch by decide), dif_pos (show (1 : Fin S16x65536.rank) ∈ dot_S8x16_S16x65536_S8x65536_1_0_0_1_n_n.rhsNonContracting by decide)]
  rfl

/-- The product into a zero accumulator, at row r and column j: the sum over the sixteen contracted positions. -/
theorem mm1_apply (A : FVec Ideal S16x16 .f32) (B : FVec Ideal S16x65536 .f32) (r : Fin 16) (j : Fin 65536) :
    matmul dot_S16x16_S16x65536_S16x65536_1_0_0_1_n_n none A B (constant S16x65536 .f32 0x00000000#32) (ix2 r j) = ∑ i : Fin 16, A (ix2 r i) * B (ix2 i j) := by
  simp only [matmul]
  rw [Ideal.matmul_constant_zero_apply, ← Equiv.sum_comp (ValueIdx.contrEquiv1 dot_S16x16_S16x65536_S16x65536_1_0_0_1_n_n 16 rfl rfl).symm]
  refine Finset.sum_congr rfl fun i _ => ?_
  have hk := ValueIdx.contrEquiv1_symm_val dot_S16x16_S16x65536_S16x65536_1_0_0_1_n_n 16 rfl rfl i
  have el : dot_S16x16_S16x65536_S16x65536_1_0_0_1_n_n.lhsIdx (ix2 r j) ((ValueIdx.contrEquiv1 dot_S16x16_S16x65536_S16x65536_1_0_0_1_n_n 16 rfl rfl).symm i) = ix2 r i := funext fun a => Fin.ext (by
    match a with
    | ⟨0, _⟩ => exact lhs1_0 _ _
    | ⟨1, _⟩ => exact (lhs1_1 _ _).trans hk)
  have er : dot_S16x16_S16x65536_S16x65536_1_0_0_1_n_n.rhsIdx (ix2 r j) ((ValueIdx.contrEquiv1 dot_S16x16_S16x65536_S16x65536_1_0_0_1_n_n 16 rfl rfl).symm i) = ix2 i j := funext fun a => Fin.ext (by
    match a with
    | ⟨0, _⟩ => exact (rhs1_0 _ _).trans hk
    | ⟨1, _⟩ => exact rhs1_1 _ _)
  rw [el, er]

/-- The product into a zero accumulator, at row r and column j: the sum over the sixteen contracted positions. -/
theorem mm2_apply (A : FVec Ideal S8x16 .f32) (B : FVec Ideal S16x65536 .f32) (r : Fin 8) (j : Fin 65536) :
    matmul dot_S8x16_S16x65536_S8x65536_1_0_0_1_n_n none A B (constant S8x65536 .f32 0x00000000#32) (ix2 r j) = ∑ i : Fin 16, A (ix2 r i) * B (ix2 i j) := by
  simp only [matmul]
  rw [Ideal.matmul_constant_zero_apply, ← Equiv.sum_comp (ValueIdx.contrEquiv1 dot_S8x16_S16x65536_S8x65536_1_0_0_1_n_n 16 rfl rfl).symm]
  refine Finset.sum_congr rfl fun i _ => ?_
  have hk := ValueIdx.contrEquiv1_symm_val dot_S8x16_S16x65536_S8x65536_1_0_0_1_n_n 16 rfl rfl i
  have el : dot_S8x16_S16x65536_S8x65536_1_0_0_1_n_n.lhsIdx (ix2 r j) ((ValueIdx.contrEquiv1 dot_S8x16_S16x65536_S8x65536_1_0_0_1_n_n 16 rfl rfl).symm i) = ix2 r i := funext fun a => Fin.ext (by
    match a with
    | ⟨0, _⟩ => exact lhs2_0 _ _
    | ⟨1, _⟩ => exact (lhs2_1 _ _).trans hk)
  have er : dot_S8x16_S16x65536_S8x65536_1_0_0_1_n_n.rhsIdx (ix2 r j) ((ValueIdx.contrEquiv1 dot_S8x16_S16x65536_S8x65536_1_0_0_1_n_n 16 rfl rfl).symm i) = ix2 i j := funext fun a => Fin.ext (by
    match a with
    | ⟨0, _⟩ => exact (rhs2_0 _ _).trans hk
    | ⟨1, _⟩ => exact rhs2_1 _ _)
  rw [el, er]

/-- A bias column broadcast along the lanes, read at row k: the column's entry k. -/
theorem bcol16 (b : Vec Ideal S16x1 .f32) (k : Fin 16) (j : Fin 65536) :
    broadcastTo S16x65536 b broadcasts_S16x1_S16x65536 (ix2 k j) = b (ix2 k (0 : Fin 1)) :=
  broadcastTo_apply b broadcasts_S16x1_S16x65536 (ix2 k j) (ix2 k (0 : Fin 1)) (fun a => match a with
    | ⟨0, _⟩ => by show k.val = if (16 : Nat) = 1 then 0 else k.val; rw [if_neg (by decide)]
    | ⟨1, _⟩ => by show 0 = if (1 : Nat) = 1 then 0 else j.val; rw [if_pos rfl])
theorem bcol8 (b : Vec Ideal S8x1 .f32) (r : Fin 8) (j : Fin 65536) :
    broadcastTo S8x65536 b broadcasts_S8x1_S8x65536 (ix2 r j) = b (ix2 r (0 : Fin 1)) :=
  broadcastTo_apply b broadcasts_S8x1_S8x65536 (ix2 r j) (ix2 r (0 : Fin 1)) (fun a => match a with
    | ⟨0, _⟩ => by show r.val = if (8 : Nat) = 1 then 0 else r.val; rw [if_neg (by decide)]
    | ⟨1, _⟩ => by show 0 = if (1 : Nat) = 1 then 0 else j.val; rw [if_pos rfl])

/-- Row r, column j of the second layer's result. -/
def cell (X0 : Vec Ideal S16x65536 .f32) (X1 : Vec Ideal S16x16 .f32) (X2 : Vec Ideal S16x1 .f32) (X3 : Vec Ideal S8x16 .f32)
    (X4 : Vec Ideal S8x1 .f32) (r : Fin 8) (j : Fin 65536) : EReal :=
  (∑ k : Fin 16, X3 (ix2 r k) * lrelu ((∑ i : Fin 16, X1 (ix2 k i) * X0 (ix2 i j)) + X2 (ix2 k (0 : Fin 1)))) + X4 (ix2 r (0 : Fin 1))

theorem pay1_apply (X0 : Vec Ideal S16x65536 .f32) (X1 : Vec Ideal S16x16 .f32) (X2 : Vec Ideal S16x1 .f32) (X3 : Vec Ideal S8x16 .f32)
    (X4 : Vec Ideal S8x1 .f32) (r : Fin 8) (j : Fin 65536) :
    k0_pay1 (F := Ideal) X0 X1 X2 X3 X4 (ix2 r j) = cell X0 X1 X2 X3 X4 r j := by
  unfold k0_pay1 cell
  simp only [shapeCast_self]
  rw [addf_apply, mm2_apply, bcol8]
  congr 1
  refine Finset.sum_congr rfl fun k _ => ?_
  rw [maximumf_apply, mulf_apply, broadcast_apply, addf_apply, mm1_apply, bcol16]
  exact congrArg _ (max_eq_lrelu _)

/-- Element j of the first result row. -/
theorem pay2_apply (X0 : Vec Ideal S16x65536 .f32) (X1 : Vec Ideal S16x16 .f32) (X2 : Vec Ideal S16x1 .f32) (X3 : Vec Ideal S8x16 .f32)
    (X4 : Vec Ideal S8x1 .f32) (j : Fin 65536) :
    k0_pay2 (F := Ideal) X0 X1 X2 X3 X4 (ix1 j) = cell X0 X1 X2 X3 X4 (0 : Fin 8) j := by
  unfold k0_pay2
  rw [shapeCast_apply _ shapeCasts_S1x65536_S65536 (ix1 j) (ix2 (0 : Fin 1) j)
    (by rw [Shape.rowMajor_val_two, Shape.rowMajor_val_one]; show 0 * 65536 + j.val = j.val; omega)]
  rw [extractStridedSlice_apply ![0, 0] _ slices_S8x65536_o0_0_S1x65536 (ix2 (0 : Fin 1) j) (ix2 (0 : Fin 8) j) (fun a => match a with
    | ⟨0, _⟩ => by show 0 = 0 + 0; rfl
    | ⟨1, _⟩ => by show j.val = 0 + j.val; omega)]
  exact pay1_apply X0 X1 X2 X3 X4 0 j

/-- Element j of the second result row. -/
theorem pay3_apply (X0 : Vec Ideal S16x65536 .f32) (X1 : Vec Ideal S16x16 .f32) (X2 : Vec Ideal S16x1 .f32) (X3 : Vec Ideal S8x16 .f32)
    (X4 : Vec Ideal S8x1 .f32) (j : Fin 65536) :
    k0_pay3 (F := Ideal) X0 X1 X2 X3 X4 (ix1 j) = cell X0 X1 X2 X3 X4 (1 : Fin 8) j := by
  unfold k0_pay3
  rw [shapeCast_apply _ shapeCasts_S1x65536_S65536 (ix1 j) (ix2 (0 : Fin 1) j)
    (by rw [Shape.rowMajor_val_two, Shape.rowMajor_val_one]; show 0 * 65536 + j.val = j.val; omega)]
  rw [extractStridedSlice_apply ![1, 0] _ slices_S8x65536_o1_0_S1x65536 (ix2 (0 : Fin 1) j) (ix2 (1 : Fin 8) j) (fun a => match a with
    | ⟨0, _⟩ => by show 1 = 1 + 0; rfl
    | ⟨1, _⟩ => by show j.val = 0 + j.val; omega)]
  exact pay1_apply X0 X1 X2 X3 X4 1 j

/-- Two input blocks with the same column j give the same cell in column j. -/
theorem cell_congr (X0 X0' : Vec Ideal S16x65536 .f32) (X1 : Vec Ideal S16x16 .f32) (X2 : Vec Ideal S16x1 .f32) (X3 : Vec Ideal S8x16 .f32)
    (X4 : Vec Ideal S8x1 .f32) (r : Fin 8) (j : Fin 65536) (h : ∀ i : Fin 16, X0 (ix2 i j) = X0' (ix2 i j)) :
    cell X0 X1 X2 X3 X4 r j = cell X0' X1 X2 X3 X4 r j := by
  unfold cell
  simp only [h]

end Cert.KernelIdeal.Payload

end
-- ==== Proof.IdealRun.lean ====
/-
  The idealized kernel's run with every staging buffer named. After the body at grid point t the input
  buffers hold their blocks — the block of the transposed input cut at the array's end and filled out with
  zeros, the four small operands whole — and the two result buffers hold the two payload rows computed from
  those. The last block of the transposed input overhangs the array (1000000 = 15 · 65536 + 16960), so what the
  body really finds past column 16960 of that buffer at the last point is arbitrary; over the extended reals
  column j of either result row depends on the input block through its column j only, so on the columns inside
  the array the result rows are the ones named here whatever the tail held, and only those columns are
  written back.
-/
import proofs.«111864_g89618787598748_cont_9to1c4b_779_5_alg».proof.Proof.Body
import proofs.«111864_g89618787598748_cont_9to1c4b_779_5_alg».proof.Proof.Payload
import proofs.«111864_g89618787598748_cont_9to1c4b_779_5_alg».proof.Proof.Gen.KernelIdeal.Frame
import proofs.«111864_g89618787598748_cont_9to1c4b_779_5_alg».proof.Proof.Gen.KernelIdeal.Points
import Idealize.ShloMosaic.Lib.Pipeline.Frame

set_option maxRecDepth 16384

noncomputable section

namespace Cert.KernelIdeal.Run

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The transposed input's block at point t, cut at the array's end and filled out with zeros. -/
def xfill (c : Dev nD) (t : Fin cfg0.N) : Vec Ideal S16x65536 .f32 :=
  win0_0.fill (grid0.coords t) (fun _ => (0 : EReal)) (iblk m c 0 t)

/-- The proof data: the windows' arrays as the region finds them; after the body each input buffer at its block
    and each result buffer at its payload row of the input blocks; the class invariant; full shares; nothing owed. -/
def dats (_ : Fin 1) (c : Dev nD) : Dat τ (Elt Ideal) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => iblk m c 3 t
    | ⟨4, _⟩ => iblk m c 4 t
    | ⟨5, _⟩ => k0_pay2 (F := Ideal) (xfill m c t) (iblk m c 1 t) (iblk m c 2 t) (iblk m c 3 t) (iblk m c 4 t)
    | ⟨6, _⟩ => k0_pay3 (F := Ideal) (xfill m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfill m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay2 (F := Ideal) (xfill m c t) (iblk m c 1 t) (iblk m c 2 t) (iblk m c 3 t) (iblk m c 4 t) := by dsimp only [dats]
theorem after0_6 (c : Dev nD) (t : Fin cfg0.N) : (dats m 0 c).after 6 t
    = k0_pay3 (F := Ideal) (xfill m c t) (iblk m c 1 t) (iblk m c 2 t) (iblk m c 3 t) (iblk m c 4 t) := by dsimp only [dats]

/-- The result windows are never fetched. -/
theorem fetch0_5 : ∀ t : Fin cfg0.N, (cfg0.win 5).fetch t = false :=
  (by decide +kernel : ∀ t : Fin grid0.N, win0_5.fetch t = false)
theorem fetch0_6 : ∀ t : Fin cfg0.N, (cfg0.win 6).fetch t = false :=
  (by decide +kernel : ∀ t : Fin grid0.N, win0_6.fetch t = false)

/-- What the body finds: the transposed input's buffer just fetched — its block inside the array, anything past it —, -/
theorem before0_0 (c : Dev nD) (t : Fin cfg0.N) (d) :
    (dats m 0 c).before 0 t d = win0_0.fill (grid0.coords t) d (iblk m c 0 t) := by
  unfold Dat.before; rw [if_pos (fetch0_0 t)]; rfl
/-- the four small operands' buffers at their blocks, fetched at this point or not, -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- and the result buffers at contents nothing names (written back at every point, never fetched). -/
theorem before0_5 (c : Dev nD) (t : Fin cfg0.N) (d) : (dats m 0 c).before 5 t d = d := by
  by_cases ht : t.val = 0
  · unfold Dat.before; rw [fetch0_5 t, if_neg Bool.false_ne_true, if_pos ht]
  · rw [(dats m 0 c).before_of_pos 5 t ht (fetch0_5 t), if_pos (flush0_5 _)]
theorem before0_6 (c : Dev nD) (t : Fin cfg0.N) (d) : (dats m 0 c).before 6 t d = d := by
  by_cases ht : t.val = 0
  · unfold Dat.before; rw [fetch0_6 t, if_neg Bool.false_ne_true, if_pos ht]
  · rw [(dats m 0 c).before_of_pos 6 t ht (fetch0_6 t), if_pos (flush0_6 _)]

/-! ## The columns inside the array -/

/-- At every point the transposed input's block keeps all sixteen rows, and it and the two result blocks are cut
    at the same column. -/
theorem xsizes : ∀ t : Fin cfg0.N, win0_0.xsize (grid0.coords t) 0 = 16
    ∧ win0_0.xsize (grid0.coords t) 1 = win0_5.xsize (grid0.coords t) 0
    ∧ win0_6.xsize (grid0.coords t) 0 = win0_5.xsize (grid0.coords t) 0 :=
  (by decide +kernel : ∀ t : Fin grid0.N, win0_0.xsize (grid0.coords t) 0 = 16
    ∧ win0_0.xsize (grid0.coords t) 1 = win0_5.xsize (grid0.coords t) 0
    ∧ win0_6.xsize (grid0.coords t) 0 = win0_5.xsize (grid0.coords t) 0)

/-- A column of the input block below the cut is inside the array. -/
theorem moved_col (t : Fin cfg0.N) (i : Fin 16) (j : Fin 65536) (hj : j.val < win0_5.xsize (grid0.coords t) 0) :
    win0_0.moved (grid0.coords t) (ix2 i j) = true := (win0_0.moved_iff _ _).mpr (fun a => match a with
    | ⟨0, _⟩ => by
      have h := (xsizes t).1
      show i.val < win0_0.xsize (grid0.coords t) (0 : Fin 2)
      rw [h]; exact i.isLt
    | ⟨1, _⟩ => by
      have h := (xsizes t).2.1
      show j.val < win0_0.xsize (grid0.coords t) (1 : Fin 2)
      rw [h]; exact hj)

/-- On a column inside the array the filled-out block is the block, whatever it was filled out with. -/
theorem fill_col (t : Fin cfg0.N) (d d' : S16x65536.Idx → EReal) (g : (win0_0.xblock (grid0.coords t)).Idx → EReal)
    (i : Fin 16) (j : Fin 65536) (hj : j.val < win0_5.xsize (grid0.coords t) 0) :
    win0_0.fill (grid0.coords t) d g (ix2 i j) = win0_0.fill (grid0.coords t) d' g (ix2 i j) := by
  have hm := moved_col t i j hj
  unfold Window.fill
  rw [dif_pos hm, dif_pos hm]

/-- So the part of the first result row that is written back does not depend on what filled the input block out, -/
theorem cut_pay2 (c : Dev nD) (t : Fin cfg0.N) (d : S16x65536.Idx → EReal)
    (B1 : Vec Ideal S16x16 .f32) (B2 : Vec Ideal S16x1 .f32) (B3 : Vec Ideal S8x16 .f32) (B4 : Vec Ideal S8x1 .f32) :
    win0_5.cut (grid0.coords t) (k0_pay2 (F := Ideal) (win0_0.fill (grid0.coords t) d (iblk m c 0 t)) B1 B2 B3 B4)
      = win0_5.cut (grid0.coords t) (k0_pay2 (F := Ideal) (xfill m c t) B1 B2 B3 B4) := by
  funext y
  have hy : (y 0).val < win0_5.xsize (grid0.coords t) 0 := (y 0).isLt
  have hj : (y 0).val < 65536 := lt_of_lt_of_le hy (win0_5.xsize_le _ 0)
  have e : win0_5.xinj (grid0.coords t) y = ix1 (⟨(y 0).val, hj⟩ : Fin 65536) := funext fun a => by
    match a with | ⟨0, _⟩ => rfl
  show k0_pay2 (F := Ideal) _ B1 B2 B3 B4 (win0_5.xinj (grid0.coords t) y) = k0_pay2 (F := Ideal) _ B1 B2 B3 B4 (win0_5.xinj (grid0.coords t) y)
  rw [e, pay2_apply, pay2_apply]
  exact cell_congr _ _ _ _ _ _ _ _ (fun i => fill_col t _ _ _ i _ hy)

/-- nor does the second's. -/
theorem cut_pay3 (c : Dev nD) (t : Fin cfg0.N) (d : S16x65536.Idx → EReal)
    (B1 : Vec Ideal S16x16 .f32) (B2 : Vec Ideal S16x1 .f32) (B3 : Vec Ideal S8x16 .f32) (B4 : Vec Ideal S8x1 .f32) :
    win0_6.cut (grid0.coords t) (k0_pay3 (F := Ideal) (win0_0.fill (grid0.coords t) d (iblk m c 0 t)) B1 B2 B3 B4)
      = win0_6.cut (grid0.coords t) (k0_pay3 (F := Ideal) (xfill m c t) B1 B2 B3 B4) := by
  funext y
  have hy : (y 0).val < win0_5.xsize (grid0.coords t) 0 := (xsizes t).2.2 ▸ (y 0).isLt
  have hj : (y 0).val < 65536 := lt_of_lt_of_le hy (win0_5.xsize_le _ 0)
  have e : win0_6.xinj (grid0.coords t) y = ix1 (⟨(y 0).val, hj⟩ : Fin 65536) := funext fun a => by
    match a with | ⟨0, _⟩ => rfl
  show k0_pay3 (F := Ideal) _ B1 B2 B3 B4 (win0_6.xinj (grid0.coords t) y) = k0_pay3 (F := Ideal) _ B1 B2 B3 B4 (win0_6.xinj (grid0.coords t) y)
  rw [e, pay3_apply, pay3_apply]
  exact cell_congr _ _ _ _ _ _ _ _ (fun i => fill_col t _ _ _ i _ hy)

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the three cut windows' buffers stated on the part inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t))))
    ∗ (∃ d, owns (c : Thread nD τ) (st0_6 t) fullShare
        ((cfg0.win 6).fill (cfg0.grid.coords t) d ((cfg0.win 6).cut (cfg0.grid.coords t) ((dats m 0 c).after 6 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before0_0 m c t d0]
  iapply (sound_kernel c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists d0
    rw [show (cfg0.win 0).cut (cfg0.grid.coords t) (xfill m c t) = iblk m c 0 t from win0_0.cut_fill _ _ _]
    iexact H0
  isplitl [H1]; · iexact H1
  isplitl [H2]; · iexact H2
  isplitl [H3]; · iexact H3
  isplitl [H4]; · iexact H4
  isplitl [H5]
  · iexists k0_pay2 (F := Ideal) (win0_0.fill (grid0.coords t) d0 (iblk m c 0 t)) (iblk m c 1 t) (iblk m c 2 t) (iblk m c 3 t) (iblk m c 4 t)
    rw [show (cfg0.win 5).fill (cfg0.grid.coords t)
          (k0_pay2 (F := Ideal) (win0_0.fill (grid0.coords t) d0 (iblk m c 0 t)) (iblk m c 1 t) (iblk m c 2 t) (iblk m c 3 t) (iblk m c 4 t))
          ((cfg0.win 5).cut (cfg0.grid.coords t)
            (k0_pay2 (F := Ideal) (xfill m c t) (iblk m c 1 t) (iblk m c 2 t) (iblk m c 3 t) (iblk m c 4 t)))
        = k0_pay2 (F := Ideal) (win0_0.fill (grid0.coords t) d0 (iblk m c 0 t)) (iblk m c 1 t) (iblk m c 2 t) (iblk m c 3 t) (iblk m c 4 t)
      from win0_5.fill_congr_cut _ (cut_pay2 m c t d0 _ _ _ _)]
    iexact H5
  · iexists k0_pay3 (F := Ideal) (win0_0.fill (grid0.coords t) d0 (iblk m c 0 t)) (iblk m c 1 t) (iblk m c 2 t) (iblk m c 3 t) (iblk m c 4 t)
    rw [show (cfg0.win 6).fill (cfg0.grid.coords t)
          (k0_pay3 (F := Ideal) (win0_0.fill (grid0.coords t) d0 (iblk m c 0 t)) (iblk m c 1 t) (iblk m c 2 t) (iblk m c 3 t) (iblk m c 4 t))
          ((cfg0.win 6).cut (cfg0.grid.coords t)
            (k0_pay3 (F := Ideal) (xfill m c t) (iblk m c 1 t) (iblk m c 2 t) (iblk m c 3 t) (iblk m c 4 t)))
        = k0_pay3 (F := Ideal) (win0_0.fill (grid0.coords t) d0 (iblk m c 0 t)) (iblk m c 1 t) (iblk m c 2 t) (iblk m c 3 t) (iblk m c 4 t)
      from win0_6.fill_congr_cut _ (cut_pay3 m c t d0 _ _ _ _)]
    iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates without a fault; every window's array ends at what the
    write-backs make of it, every other array as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Run

end
-- ==== Proof.HostOps.lean ====
/-
  What the pipeline's windows find in their arrays: the host operations before the region transpose X
  (to 16 × 1000000) and W1, turn b1 into a column, transpose W2 and pad it with six zero rows (8 × 16), and pad
  b2 with six zeros and turn it into a column (8 × 1). Read at an index: the transposed X at (i, n) is X at
  (n, i); the transposed W1 at (k, j) is W1 at (j, k); the bias column at (k, 0) is b1 at k; the padded W2 at
  (r, k), for r below 2, is W2 at (k, r); the padded bias column at (r, 0), for r below 2, is b2 at r.
-/
import proofs.«111864_g89618787598748_cont_9to1c4b_779_5_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostOps

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

theorem V_v0 (c : Dev nD) : (V m c main_call0_v0 : S16x1000000.Idx → Elt F .f32)
    = transpose S16x1000000 [1, 0] (m ((c : Thread nD τ).loc main_arg0)) transposes_S1000000x16_S16x1000000_1_0 := by
  dsimp only [V, hostOps0]; after_results; rfl

theorem V_v1 (c : Dev nD) : (V m c main_call0_v1 : S16x16.Idx → Elt F .f32)
    = transpose S16x16 [1, 0] (m ((c : Thread nD τ).loc main_arg1)) transposes_S16x16_S16x16_1_0 := by
  dsimp only [V, hostOps0]; after_results; rfl

theorem V_v2 (c : Dev nD) : (V m c main_call0_v2 : S16x1.Idx → Elt F .f32)
    = shapeCast S16x1 (m ((c : Thread nD τ).loc main_arg2)) shapeCasts_S16_S16x1 := by
  dsimp only [V, hostOps0]; after_results; rfl

theorem V_v5 (c : Dev nD) : (V m c main_call0_v5 : S8x16.Idx → Elt F .f32)
    = concatenate S8x16 0 [⟨S2x16, transpose S2x16 [1, 0] (m ((c : Thread nD τ).loc main_arg3)) transposes_S16x2_S2x16_1_0⟩,
        ⟨S6x16, broadcastInDim S6x16 ![] bcast_S_S6x16 (constant (F := F) S_ .f32 0x00000000#32)⟩] concatenates_S2x16_S6x16_S8x16_d0 := by
  dsimp only [V, hostOps0]; after_results; rfl

theorem V_v8 (c : Dev nD) : (V m c main_call0_v8 : S8x1.Idx → Elt F .f32)
    = shapeCast S8x1 (concatenate S8 0 [⟨S2, m ((c : Thread nD τ).loc main_arg4)⟩,
        ⟨S6, broadcastInDim S6 ![] bcast_S_S6 (constant (F := F) S_ .f32 0x00000000#32)⟩] concatenates_S2_S6_S8_d0) shapeCasts_S8_S8x1 := by
  dsimp only [V, hostOps0]; after_results; rfl

/-- The transposed input at (i, n) is X at (n, i). -/
theorem V_v0_apply (c : Dev nD) (i : Fin 16) (n : Fin 1000000) :
    (V m c main_call0_v0 : S16x1000000.Idx → Elt F .f32) (ix2 i n) = (m ((c : Thread nD τ).loc main_arg0) : S1000000x16.Idx → Elt F .f32) (ix2 n i) := by
  rw [V_v0]
  exact transpose_apply [1, 0] _ transposes_S1000000x16_S16x1000000_1_0 (ix2 i n) (ix2 n i) (fun b => match b with
    | ⟨0, _⟩ => rfl
    | ⟨1, _⟩ => rfl)

/-- The transposed first-layer weights at (k, j) are W1 at (j, k). -/
theorem V_v1_apply (c : Dev nD) (k j : Fin 16) :
    (V m c main_call0_v1 : S16x16.Idx → Elt F .f32) (ix2 k j) = (m ((c : Thread nD τ).loc main_arg1) : S16x16.Idx → Elt F .f32) (ix2 j k) := by
  rw [V_v1]
  exact transpose_apply [1, 0] _ transposes_S16x16_S16x16_1_0 (ix2 k j) (ix2 j k) (fun b => match b with
    | ⟨0, _⟩ => rfl
    | ⟨1, _⟩ => rfl)

/-- The first-layer bias column at (k, 0) is b1 at k. -/
theorem V_v2_apply (c : Dev nD) (k : Fin 16) :
    (V m c main_call0_v2 : S16x1.Idx → Elt F .f32) (ix2 k (0 : Fin 1)) = (m ((c : Thread nD τ).loc main_arg2) : S16.Idx → Elt F .f32) (ix1 k) := by
  rw [V_v2]
  exact shapeCast_apply _ shapeCasts_S16_S16x1 (ix2 k (0 : Fin 1)) (ix1 k)
    (by rw [Shape.rowMajor_val_two, Shape.rowMajor_val_one]; show k.val = k.val * 1 + 0; omega)

/-- The padded transposed second-layer weights at (r, k), r below 2, are W2 at (k, r). -/
theorem V_v5_apply (c : Dev nD) (r : Fin 8) (r' : Fin 2) (hr : r.val = r'.val) (k : Fin 16) :
    (V m c main_call0_v5 : S8x16.Idx → Elt F .f32) (ix2 r k) = (m ((c : Thread nD τ).loc main_arg3) : S16x2.Idx → Elt F .f32) (ix2 k r') := by
  rw [V_v5]
  refine (concatenate_pair_apply_left (0 : Fin S8x16.rank) _ _ concatenates_S2x16_S6x16_S8x16_d0 (ix2 r k) rfl (ix2 r' k) (fun b => match b with
    | ⟨0, _⟩ => hr.symm
    | ⟨1, _⟩ => rfl)).trans ?_
  exact transpose_apply [1, 0] _ transposes_S16x2_S2x16_1_0 (ix2 r' k) (ix2 k r') (fun b => match b with
    | ⟨0, _⟩ => rfl
    | ⟨1, _⟩ => rfl)

/-- The padded second-layer bias column at (r, 0), r below 2, is b2 at r. -/
theorem V_v8_apply (c : Dev nD) (r : Fin 8) (r' : Fin 2) (hr : r.val = r'.val) :
    (V m c main_call0_v8 : S8x1.Idx → Elt F .f32) (ix2 r (0 : Fin 1)) = (m ((c : Thread nD τ).loc main_arg4) : S2.Idx → Elt F .f32) (ix1 r') := by
  rw [V_v8]
  refine (shapeCast_apply _ shapeCasts_S8_S8x1 (ix2 r (0 : Fin 1)) (ix1 r)
    (by rw [Shape.rowMajor_val_two, Shape.rowMajor_val_one]; show r.val = r.val * 1 + 0; omega)).trans ?_
  exact concatenate_pair_apply_left (0 : Fin S8.rank) _ _ concatenates_S2_S6_S8_d0 (ix1 r) rfl (ix1 r') (fun b => match b with
    | ⟨0, _⟩ => hr.symm)

end Cert.KernelIdeal.HostOps

end
-- ==== Proof.IdealValue.lean ====
/-
  The two result arrays after the idealized kernel's run are the two outputs of the specification's
  perceptron. Grid point t writes back columns 65536·t … of each result row, cut at column 1000000; over
  the sixteen points the blocks cover the million columns. Column j of the first row at point t is
  Σ_k W2p[0,k]·lrelu(Σ_i W1t[k,i]·x[i,j] + b1[k,0]) + b2p[0,0], where W2p's row 0 is W2's column 0, W1t is W1
  transposed, x[i,j] is X at row 65536·t + j and column i, and the bias columns are b1 and b2: the
  specification's output 0 of row 65536·t + j, the products commuted. The second row likewise is output 1.
-/
import proofs.«111864_g89618787598748_cont_9to1c4b_779_5_alg».proof.Proof.IdealRun
import proofs.«111864_g89618787598748_cont_9to1c4b_779_5_alg».proof.Proof.HostOps
import proofs.«111864_g89618787598748_cont_9to1c4b_779_5_alg».proof.Proof.Spec

set_option maxRecDepth 16384

noncomputable section

open scoped BigOperators

namespace Cert.KernelIdeal.Final

open Cert.KernelIdeal Cert.KernelIdeal.Gen Cert.KernelIdeal.Run Cert.KernelIdeal.Payload Cert.KernelIdeal.HostOps Cert.Mlp
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The five arguments as the launch memory holds them, at their literal shapes. -/
abbrev aX (c : Dev nD) : SX.Idx → EReal := (m ((c : Thread nD τ).loc main_arg0))
abbrev aW1 (c : Dev nD) : SW1.Idx → EReal := (m ((c : Thread nD τ).loc main_arg1))
abbrev ab1 (c : Dev nD) : Sb1.Idx → EReal := (m ((c : Thread nD τ).loc main_arg2))
abbrev aW2 (c : Dev nD) : SW2.Idx → EReal := (m ((c : Thread nD τ).loc main_arg3))
abbrev ab2 (c : Dev nD) : Sb2.Idx → EReal := (m ((c : Thread nD τ).loc main_arg4))

/-- The printed index maps and cuts, decided over the sixteen points: the input block moves along the columns
    with the point, the four small operands stay, each result block is the point's, cut at column 1000000. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val ∧ win0_6.index t (0 : Fin 1) = t.val
    ∧ win0_5.xsize (grid0.coords t) (0 : Fin 1) = min 65536 (1000000 - 65536 * t.val) :=
  (by decide +kernel : ∀ t : Fin grid0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = t.val ∧ win0_6.index t (0 : Fin 1) = t.val
    ∧ win0_5.xsize (grid0.coords t) (0 : Fin 1) = min 65536 (1000000 - 65536 * t.val))

/-! ## The blocks, read at an element -/

/-- The transposed-weights block at (k, i) is W1 at (i, k). -/
theorem w1_read (c : Dev nD) (t : Fin cfg0.N) (k i : Fin 16) :
    (iblk m c 1 t : S16x16.Idx → EReal) (ix2 k i) = aW1 m c (ix2 i k) := by
  obtain ⟨-, -, e0, e1, -⟩ := idx_facts t
  show (V m c main_call0_v1 : S16x16.Idx → EReal) (((cfg0.win 1).blk t).view.emb (ix2 k i)) = _
  have e : ((cfg0.win 1).blk t).view.emb (ix2 k i) = ix2 k i := by
    funext a; apply Fin.ext
    match a with
    | ⟨0, _⟩ => show win0_1.index t (0 : Fin 2) * 16 + 1 * k.val = k.val; omega
    | ⟨1, _⟩ => show win0_1.index t (1 : Fin 2) * 16 + 1 * i.val = i.val; omega
  rw [e]; exact V_v1_apply m c k i

/-- The bias-column block at (k, 0) is b1 at k. -/
theorem b1_read (c : Dev nD) (t : Fin cfg0.N) (k : Fin 16) :
    (iblk m c 2 t : S16x1.Idx → EReal) (ix2 k (0 : Fin 1)) = ab1 m c (ix1 k) := by
  obtain ⟨-, -, -, -, e0, e1, -⟩ := idx_facts t
  show (V m c main_call0_v2 : S16x1.Idx → EReal) (((cfg0.win 2).blk t).view.emb (ix2 k (0 : Fin 1))) = _
  have e : ((cfg0.win 2).blk t).view.emb (ix2 k (0 : Fin 1)) = ix2 k (0 : Fin 1) := by
    funext a; apply Fin.ext
    match a with
    | ⟨0, _⟩ => show win0_2.index t (0 : Fin 2) * 16 + 1 * k.val = k.val; omega
    | ⟨1, _⟩ => show win0_2.index t (1 : Fin 2) * 1 + 1 * 0 = 0; omega
  rw [e]; exact V_v2_apply m c k

/-- The padded transposed-weights block at (r, k), r below 2, is W2 at (k, r). -/
theorem w2_read (c : Dev nD) (t : Fin cfg0.N) (r : Fin 8) (r' : Fin 2) (hr : r.val = r'.val) (k : Fin 16) :
    (iblk m c 3 t : S8x16.Idx → EReal) (ix2 r k) = aW2 m c (ix2 k r') := by
  obtain ⟨-, -, -, -, -, -, e0, e1, -⟩ := idx_facts t
  show (V m c main_call0_v5 : S8x16.Idx → EReal) (((cfg0.win 3).blk t).view.emb (ix2 r k)) = _
  have e : ((cfg0.win 3).blk t).view.emb (ix2 r k) = ix2 r k := by
    funext a; apply Fin.ext
    match a with
    | ⟨0, _⟩ => show win0_3.index t (0 : Fin 2) * 8 + 1 * r.val = r.val; omega
    | ⟨1, _⟩ => show win0_3.index t (1 : Fin 2) * 16 + 1 * k.val = k.val; omega
  rw [e]; exact V_v5_apply m c r r' hr k

/-- The padded bias-column block at (r, 0), r below 2, is b2 at r. -/
theorem b2_read (c : Dev nD) (t : Fin cfg0.N) (r : Fin 8) (r' : Fin 2) (hr : r.val = r'.val) :
    (iblk m c 4 t : S8x1.Idx → EReal) (ix2 r (0 : Fin 1)) = ab2 m c (ix1 r') := by
  obtain ⟨-, -, -, -, -, -, -, -, e0, e1, -⟩ := idx_facts t
  show (V m c main_call0_v8 : S8x1.Idx → EReal) (((cfg0.win 4).blk t).view.emb (ix2 r (0 : Fin 1))) = _
  have e : ((cfg0.win 4).blk t).view.emb (ix2 r (0 : Fin 1)) = ix2 r (0 : Fin 1) := by
    funext a; apply Fin.ext
    match a with
    | ⟨0, _⟩ => show win0_4.index t (0 : Fin 2) * 8 + 1 * r.val = r.val; omega
    | ⟨1, _⟩ => show win0_4.index t (1 : Fin 2) * 1 + 1 * 0 = 0; omega
  rw [e]; exact V_v8_apply m c r r' hr

/-- The input block at (i, j) is X at row 65536·t + j, column i. -/
theorem x_read (c : Dev nD) (t : Fin cfg0.N) (y : (win0_0.xblock (grid0.coords t)).Idx) (i : Fin 16) (n : Fin 1000000)
    (hi : i.val = (y 0).val) (hn : n.val = 65536 * t.val + (y 1).val) :
    iblk m c 0 t y = aX m c (ix2 n i) := by
  obtain ⟨e0, e1, -⟩ := idx_facts t
  show (V m c main_call0_v0 : S16x1000000.Idx → EReal) (((cfg0.win 0).blk t).view.emb y) = _
  have e : ((cfg0.win 0).blk t).view.emb y = ix2 i n := by
    funext a; apply Fin.ext
    match a with
    | ⟨0, _⟩ => show win0_0.index t (0 : Fin 2) * 16 + 1 * (y 0).val = i.val; omega
    | ⟨1, _⟩ => show win0_0.index t (1 : Fin 2) * 65536 + 1 * (y 1).val = n.val; omega
  rw [e]; exact V_v0_apply m c i n

/-- So is the filled-out block, on a column inside the array. -/
theorem xfill_read (c : Dev nD) (t : Fin cfg0.N) (i : Fin 16) (j : Fin 65536) (n : Fin 1000000)
    (hn : n.val = 65536 * t.val + j.val) (hj : j.val < win0_5.xsize (grid0.coords t) 0) :
    xfill m c t (ix2 i j) = aX m c (ix2 n i) := by
  unfold xfill Window.fill
  rw [dif_pos (moved_col t i j hj)]
  exact x_read m c t _ i n rfl hn

/-! ## A cell of the body's result is the specification's output -/

theorem cell_eq_out (c : Dev nD) (t : Fin cfg0.N) (r : Fin 8) (r' : Fin 2) (hr : r.val = r'.val) (j : Fin 65536) (n : Fin 1000000)
    (hn : n.val = 65536 * t.val + j.val) (hj : j.val < win0_5.xsize (grid0.coords t) 0) :
    cell (xfill m c t) (iblk m c 1 t) (iblk m c 2 t) (iblk m c 3 t) (iblk m c 4 t) r j
      = out (aX m c) (aW1 m c) (ab1 m c) (aW2 m c) (ab2 m c) r' n := by
  unfold cell out pre
  rw [b2_read m c t r r' hr]
  congr 1
  refine Finset.sum_congr rfl fun k _ => ?_
  rw [w2_read m c t r r' hr k, b1_read m c t k, mul_comm]
  congr 3
  refine Finset.sum_congr rfl fun i _ => ?_
  rw [w1_read m c t k i, xfill_read m c t i j n hn hj, mul_comm]

/-! ## The result arrays after the run -/

/-- What point t writes back of the first result row is block t of output 0. -/
theorem flushed5_eq (c : Dev nD) (t : Fin cfg0.N) :
    (dats m 0 c).flushed 5 t = ((cfg0.win 5).blk t).view.read (Elt Ideal) (outRow (aX m c) (aW1 m c) (ab1 m c) (aW2 m c) (ab2 m c) 0) := by
  show (cfg0.win 5).cut (grid0.coords t) ((dats m 0 c).after 5 t) = _
  rw [after0_5]
  obtain ⟨-, -, -, -, -, -, -, -, -, -, e5, e6, ex⟩ := idx_facts t
  funext y
  have hy : (y 0).val < win0_5.xsize (grid0.coords t) 0 := (y 0).isLt
  have hy' : (y 0).val < min 65536 (1000000 - 65536 * t.val) := lt_of_lt_of_eq hy ex
  have ht : t.val < 16 := lt_of_lt_of_eq t.isLt N_0
  have hj : (y 0).val < 65536 := by omega
  have hn : 65536 * t.val + (y 0).val < 1000000 := by omega
  have e : win0_5.xinj (grid0.coords t) y = ix1 (⟨(y 0).val, hj⟩ : Fin 65536) := funext fun a => by
    match a with | ⟨0, _⟩ => rfl
  have e' : ((cfg0.win 5).blk t).view.emb y = ix1 (⟨65536 * t.val + (y 0).val, hn⟩ : Fin 1000000) := by
    funext a; apply Fin.ext
    match a with
    | ⟨0, _⟩ => show win0_5.index t (0 : Fin 1) * 65536 + 1 * (y 0).val = 65536 * t.val + (y 0).val; omega
  show k0_pay2 (F := Ideal) (xfill m c t) (iblk m c 1 t) (iblk m c 2 t) (iblk m c 3 t) (iblk m c 4 t) (win0_5.xinj (grid0.coords t) y)
      = outRow (aX m c) (aW1 m c) (ab1 m c) (aW2 m c) (ab2 m c) 0 (((cfg0.win 5).blk t).view.emb y)
  rw [e, e', pay2_apply]
  exact cell_eq_out m c t 0 0 rfl ⟨(y 0).val, hj⟩ ⟨65536 * t.val + (y 0).val, hn⟩ rfl hy

/-- An index of the result array is in point t's block iff it lies between the block's first column and its cut end. -/
theorem mem_blk5 (t : Fin cfg0.N) (i : S1000000.Idx) :
    i ∈ ((cfg0.win 5).blk t).view.set ↔ ∀ a : Fin 1, win0_5.index t a * S65536.size a ≤ (i a).val
      ∧ (i a).val < win0_5.index t a * S65536.size a + win0_5.xsize (grid0.coords t) a := by
  show i ∈ ((View.whole main_v0_0).slice (win0_5.rect t)).set ↔ _
  rw [View.set_slice_whole, Rect.mem_set_unit]
  exact Iff.rfl

/-- The sixteen blocks cover the million columns: column n is in the block of point n / 65536. -/
theorem cover5 (i : S1000000.Idx) : ∃ t : Fin cfg0.N, (cfg0.win 5).flush t = true ∧ i ∈ ((cfg0.win 5).blk t).view.set := by
  have hi : (i 0).val < 1000000 := (i 0).isLt
  have hN : cfg0.N = 16 := N_0
  have htl : (i 0).val / 65536 < cfg0.N := by rw [hN]; omega
  refine ⟨⟨(i 0).val / 65536, htl⟩, flush0_5 _, ?_⟩
  obtain ⟨-, -, -, -, -, -, -, -, -, -, e5, e6, ex⟩ := idx_facts ⟨(i 0).val / 65536, htl⟩
  have ex6 := (xsizes ⟨(i 0).val / 65536, htl⟩).2.2
  rw [mem_blk5]
  intro a
  match a with
  | ⟨0, _⟩ =>
    show win0_5.index ⟨(i 0).val / 65536, htl⟩ (0 : Fin 1) * 65536 ≤ (i 0).val
      ∧ (i 0).val < win0_5.index ⟨(i 0).val / 65536, htl⟩ (0 : Fin 1) * 65536 + win0_5.xsize (grid0.coords ⟨(i 0).val / 65536, htl⟩) (0 : Fin 1)
    rw [e5, ex]
    show (i 0).val / 65536 * 65536 ≤ (i 0).val ∧ (i 0).val < (i 0).val / 65536 * 65536 + min 65536 (1000000 - 65536 * ((i 0).val / 65536))
    omega

/-- The first result array after the run is output 0 of every row. -/
theorem final5 (c : Dev nD) : (dats m 0 c).arrAt 5 cfg0.N = outRow (aX m c) (aW1 m c) (ab1 m c) (aW2 m c) (ab2 m c) 0 :=
  (dats m 0 c).arrAt_eq_of_cover 5 _ (fun t _ => flushed5_eq m c t) cover5

/-- What point t writes back of the second result row is block t of output 1. -/
theorem flushed6_eq (c : Dev nD) (t : Fin cfg0.N) :
    (dats m 0 c).flushed 6 t = ((cfg0.win 6).blk t).view.read (Elt Ideal) (outRow (aX m c) (aW1 m c) (ab1 m c) (aW2 m c) (ab2 m c) 1) := by
  show (cfg0.win 6).cut (grid0.coords t) ((dats m 0 c).after 6 t) = _
  rw [after0_6]
  obtain ⟨-, -, -, -, -, -, -, -, -, -, e5, e6, ex⟩ := idx_facts t
  funext y
  have hy : (y 0).val < win0_5.xsize (grid0.coords t) 0 := lt_of_lt_of_eq (y 0).isLt (xsizes t).2.2
  have hy' : (y 0).val < min 65536 (1000000 - 65536 * t.val) := lt_of_lt_of_eq hy ex
  have ht : t.val < 16 := lt_of_lt_of_eq t.isLt N_0
  have hj : (y 0).val < 65536 := by omega
  have hn : 65536 * t.val + (y 0).val < 1000000 := by omega
  have e : win0_6.xinj (grid0.coords t) y = ix1 (⟨(y 0).val, hj⟩ : Fin 65536) := funext fun a => by
    match a with | ⟨0, _⟩ => rfl
  have e' : ((cfg0.win 6).blk t).view.emb y = ix1 (⟨65536 * t.val + (y 0).val, hn⟩ : Fin 1000000) := by
    funext a; apply Fin.ext
    match a with
    | ⟨0, _⟩ => show win0_6.index t (0 : Fin 1) * 65536 + 1 * (y 0).val = 65536 * t.val + (y 0).val; omega
  show k0_pay3 (F := Ideal) (xfill m c t) (iblk m c 1 t) (iblk m c 2 t) (iblk m c 3 t) (iblk m c 4 t) (win0_6.xinj (grid0.coords t) y)
      = outRow (aX m c) (aW1 m c) (ab1 m c) (aW2 m c) (ab2 m c) 1 (((cfg0.win 6).blk t).view.emb y)
  rw [e, e', pay3_apply]
  exact cell_eq_out m c t 1 1 rfl ⟨(y 0).val, hj⟩ ⟨65536 * t.val + (y 0).val, hn⟩ rfl hy

/-- An index of the result array is in point t's block iff it lies between the block's first column and its cut end. -/
theorem mem_blk6 (t : Fin cfg0.N) (i : S1000000.Idx) :
    i ∈ ((cfg0.win 6).blk t).view.set ↔ ∀ a : Fin 1, win0_6.index t a * S65536.size a ≤ (i a).val
      ∧ (i a).val < win0_6.index t a * S65536.size a + win0_6.xsize (grid0.coords t) a := by
  show i ∈ ((View.whole main_v0_1).slice (win0_6.rect t)).set ↔ _
  rw [View.set_slice_whole, Rect.mem_set_unit]
  exact Iff.rfl

/-- The sixteen blocks cover the million columns: column n is in the block of point n / 65536. -/
theorem cover6 (i : S1000000.Idx) : ∃ t : Fin cfg0.N, (cfg0.win 6).flush t = true ∧ i ∈ ((cfg0.win 6).blk t).view.set := by
  have hi : (i 0).val < 1000000 := (i 0).isLt
  have hN : cfg0.N = 16 := N_0
  have htl : (i 0).val / 65536 < cfg0.N := by rw [hN]; omega
  refine ⟨⟨(i 0).val / 65536, htl⟩, flush0_6 _, ?_⟩
  obtain ⟨-, -, -, -, -, -, -, -, -, -, e5, e6, ex⟩ := idx_facts ⟨(i 0).val / 65536, htl⟩
  have ex6 := (xsizes ⟨(i 0).val / 65536, htl⟩).2.2
  rw [mem_blk6]
  intro a
  match a with
  | ⟨0, _⟩ =>
    show win0_6.index ⟨(i 0).val / 65536, htl⟩ (0 : Fin 1) * 65536 ≤ (i 0).val
      ∧ (i 0).val < win0_6.index ⟨(i 0).val / 65536, htl⟩ (0 : Fin 1) * 65536 + win0_6.xsize (grid0.coords ⟨(i 0).val / 65536, htl⟩) (0 : Fin 1)
    rw [e6, ex6, ex]
    show (i 0).val / 65536 * 65536 ≤ (i 0).val ∧ (i 0).val < (i 0).val / 65536 * 65536 + min 65536 (1000000 - 65536 * ((i 0).val / 65536))
    omega

/-- The second result array after the run is output 1 of every row. -/
theorem final6 (c : Dev nD) : (dats m 0 c).arrAt 6 cfg0.N = outRow (aX m c) (aW1 m c) (ab1 m c) (aW2 m c) (ab2 m c) 1 :=
  (dats m 0 c).arrAt_eq_of_cover 6 _ (fun t _ => flushed6_eq m c t) cover6

/-- The run, read: both result arrays at the specification's outputs, the five arguments unchanged. -/
theorem run : θ_run defs (onTc (τ := τ) (main (F := Ideal))) ⟨m, fun _ => 0, ρ⟩ fun r => ∀ c : Dev nD,
      r.2.mem ((c.tc : Thread nD τ).loc main_v0_0) = outRow (aX m c) (aW1 m c) (ab1 m c) (aW2 m c) (ab2 m c) 0
      ∧ r.2.mem ((c.tc : Thread nD τ).loc main_v0_1) = outRow (aX m c) (aW1 m c) (ab1 m c) (aW2 m c) (ab2 m c) 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Final

end
-- ==== Proof.RefValue.lean ====
/-
  The reference's two results are the two outputs of the perceptron of the specification, row by row.
  The reference computes, for every row n and hidden unit k, Σ_j X[n,j]·W1[j,k] + b1[k] (a matrix product, the
  bias broadcast along the rows), selects that value where it is ≥ 0 and the slope times it elsewhere,
  multiplies by W2 (a second matrix product), adds b2 broadcast along the rows, and slices the two columns
  out. Read one operation at a time at a row index, this is the specification's formula word for word.
-/
import proofs.«111864_g89618787598748_cont_9to1c4b_779_5_alg».proof.Proof.Gen.ReferenceIdeal.Read
import proofs.«111864_g89618787598748_cont_9to1c4b_779_5_alg».proof.Proof.Spec

noncomputable section

open scoped BigOperators

namespace Cert.RefValue

open Cert.ReferenceIdeal Cert.ReferenceIdeal.Read Cert.Mlp
open Idealize.ShloMosaic Idealize.ShloMosaic.ValueIdx

/-- The pre-activation stage at row n, unit k. -/
theorem pre_eq (x0 : SX.Idx → EReal) (x1 : SW1.Idx → EReal) (x2 : Sb1.Idx → EReal) (n : Fin 1000000) (k : Fin 16) :
    val_main_v3 (F := Ideal) x0 x1 x2 (ix2 n k) = pre x0 x1 x2 n k := by
  rw [val_main_v3_apply, val_main_v0_apply, val_main_v2_apply, val_main_v1_apply]
  unfold pre
  simp only [Ideal.addf_def]
  congr 1
  · refine Finset.sum_congr rfl fun j _ => ?_
    have e1 : lidx_main_v0 (ix2 n k) j = ix2 n j := funext fun a => by match a with | ⟨0, _⟩ => rfl | ⟨1, _⟩ => rfl
    have e2 : ridx_main_v0 (ix2 n k) j = ix2 j k := funext fun a => by match a with | ⟨0, _⟩ => rfl | ⟨1, _⟩ => rfl
    rw [e1, e2]
  · have e : idx_main_v1 (idx_main_v2 (ix2 n k)) = ix1 k := funext fun a => by match a with | ⟨0, _⟩ => rfl
    rw [e]

/-- The activation stage at row n, unit k. -/
theorem act_eq (x0 : SX.Idx → EReal) (x1 : SW1.Idx → EReal) (x2 : Sb1.Idx → EReal) (n : Fin 1000000) (k : Fin 16) :
    val_main_v8 (F := Ideal) x0 x1 x2 (ix2 n k) = lrelu (pre x0 x1 x2 n k) := by
  rw [val_main_v8_apply, val_main_v5_apply, val_main_v7_apply, val_main_v6_apply, val_main_cst_0_apply,
    val_main_v4_apply, val_main_cst_apply, pre_eq]
  simp only [Ideal.cmpf_def, Ideal.mulf_def, Ideal.ofBits_def, zero_eq]
  exact select_eq_lrelu _

/-- The second layer with its bias, at row n and output r. -/
theorem out_eq (x0 : SX.Idx → EReal) (x1 : SW1.Idx → EReal) (x2 : Sb1.Idx → EReal) (x3 : SW2.Idx → EReal) (x4 : Sb2.Idx → EReal)
    (n : Fin 1000000) (r : Fin 2) :
    val_main_v12 (F := Ideal) x0 x1 x2 x3 x4 (ix2 n r) = out x0 x1 x2 x3 x4 r n := by
  rw [val_main_v12_apply, val_main_v9_apply, val_main_v11_apply, val_main_v10_apply]
  unfold out
  simp only [Ideal.addf_def]
  congr 1
  · refine Finset.sum_congr rfl fun k _ => ?_
    have e1 : lidx_main_v9 (ix2 n r) k = ix2 n k := funext fun a => by match a with | ⟨0, _⟩ => rfl | ⟨1, _⟩ => rfl
    have e2 : ridx_main_v9 (ix2 n r) k = ix2 k r := funext fun a => by match a with | ⟨0, _⟩ => rfl | ⟨1, _⟩ => rfl
    rw [e1, e2, act_eq]
  · have e : idx_main_v10 (idx_main_v11 (ix2 n r)) = ix1 r := funext fun a => by match a with | ⟨0, _⟩ => rfl
    rw [e]

/-- The first result is output 0 of every row. -/
theorem v14_eq (x0 : SX.Idx → EReal) (x1 : SW1.Idx → EReal) (x2 : Sb1.Idx → EReal) (x3 : SW2.Idx → EReal) (x4 : Sb2.Idx → EReal) :
    val_main_v14 (F := Ideal) x0 x1 x2 x3 x4 = outRow x0 x1 x2 x3 x4 0 := by
  funext i
  obtain ⟨n, rfl⟩ : ∃ n : Fin 1000000, i = ix1 n := ⟨i 0, eq_ix1 i⟩
  rw [val_main_v14_apply, val_main_v13_apply]
  have e : idx_main_v13 (idx_main_v14 (ix1 n)) = ix2 n (0 : Fin 2) := funext fun a => Fin.ext (by
    match a with
    | ⟨0, _⟩ => show n.val / 1 = n.val; omega
    | ⟨1, _⟩ => rfl)
  rw [e, out_eq]
  rfl

/-- The second result is output 1 of every row. -/
theorem v16_eq (x0 : SX.Idx → EReal) (x1 : SW1.Idx → EReal) (x2 : Sb1.Idx → EReal) (x3 : SW2.Idx → EReal) (x4 : Sb2.Idx → EReal) :
    val_main_v16 (F := Ideal) x0 x1 x2 x3 x4 = outRow x0 x1 x2 x3 x4 1 := by
  funext i
  obtain ⟨n, rfl⟩ : ∃ n : Fin 1000000, i = ix1 n := ⟨i 0, eq_ix1 i⟩
  rw [val_main_v16_apply, val_main_v15_apply]
  have e : idx_main_v15 (idx_main_v16 (ix1 n)) = ix2 n (1 : Fin 2) := funext fun a => Fin.ext (by
    match a with
    | ⟨0, _⟩ => show n.val / 1 = n.val; omega
    | ⟨1, _⟩ => rfl)
  rw [e, out_eq]
  rfl

end Cert.RefValue

end
-- ==== Proof.lean ====
/-
  A two-layer perceptron over a million rows: for each row n of X, hidden unit k is
  lrelu(Σ_j X[n,j]·W1[j,k] + b1[k]) with the leaky rectifier of slope c ≈ 0.01, and the two results are
  Σ_k hidden[n,k]·W2[k,r] + b2[r] for r = 0, 1. The kernel computes it transposed, in sixteen blocks of 65536
  columns (the last one overhanging the million by 48576 columns), with W2 and b2 padded to eight rows and the
  rectifier spelt as the larger of z and c·z; the reference computes it with two matrix products and a
  compare-and-select.

  Over the extended reals both are the function of Proof/Spec.lean: the kernel's products are the reference's
  with the factors commuted, the padding rows are never read back, the two spellings of the rectifier agree
  because 0 < c < 1, and a column of the kernel's result depends on the input block through the same column
  only, so what the overhanging part of the last block held does not reach the columns that are written back.
  No law used needs the inputs to be finite, so the precondition is never opened.

  The frames: the reference's is its run with the results dropped; the idealized kernel's is its run with
  every staging buffer named (Proof/IdealRun.lean); the word-level kernel's says nothing of what the body
  leaves in the staging buffers (at the word level the overhanging tail does reach the result buffers through
  the matrix products) and needs nothing of it (Proof/FrameBits.lean). The ideal pass rewrote nothing, so
  there is nothing to preserve.
-/
import proofs.«111864_g89618787598748_cont_9to1c4b_779_5_alg».proof.Defs
import proofs.«111864_g89618787598748_cont_9to1c4b_779_5_alg».proof.Proof.Gen.Kernel
import proofs.«111864_g89618787598748_cont_9to1c4b_779_5_alg».proof.Proof.Gen.KernelIdeal
import proofs.«111864_g89618787598748_cont_9to1c4b_779_5_alg».proof.Proof.Gen.ReferenceIdeal
import proofs.«111864_g89618787598748_cont_9to1c4b_779_5_alg».proof.Proof.Gen.Pre_finite_inputs
import proofs.«111864_g89618787598748_cont_9to1c4b_779_5_alg».proof.Proof.Gen.KernelIdeal.Frame
import proofs.«111864_g89618787598748_cont_9to1c4b_779_5_alg».proof.Proof.Gen.ReferenceIdeal.Run
import proofs.«111864_g89618787598748_cont_9to1c4b_779_5_alg».proof.Proof.Gen.ReferenceIdeal.Read
import proofs.«111864_g89618787598748_cont_9to1c4b_779_5_alg».proof.Proof.FrameBits
import proofs.«111864_g89618787598748_cont_9to1c4b_779_5_alg».proof.Proof.IdealValue
import proofs.«111864_g89618787598748_cont_9to1c4b_779_5_alg».proof.Proof.RefValue
import Idealize.ShloMosaic.Adequacy
import Idealize.ShloMosaic.Init

noncomputable section

namespace Cert.Proof

open Idealize.ShloMosaic Idealize.SL.Sem

/-- The word-level kernel runs to the end and leaves its arguments as they were. -/
theorem frame_k : Cert.frame_Kernel := fun m ρ _ => Cert.Kernel.BitsFrame.frame m ρ

/-- So does the idealized kernel: its named run, read at the arguments. -/
theorem frame_ki : Cert.frame_KernelIdeal := fun m ρ _ =>
  Cert.KernelIdeal.Gen.frame_of m ρ (Cert.KernelIdeal.Run.dats m) (Cert.KernelIdeal.Run.A_eq m) (Cert.KernelIdeal.Run.run_main m ρ)

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- From memories that agree on the five arguments both idealized programs end with the specification's two
    outputs in their two results. -/
theorem algebraic : Cert.algebraic_KernelIdeal_ReferenceIdeal := by
  intro m ρ m' ρ' _ hagree
  refine ⟨fun c => Cert.Mlp.outRow (Cert.KernelIdeal.Final.aX m c) (Cert.KernelIdeal.Final.aW1 m c) (Cert.KernelIdeal.Final.ab1 m c)
      (Cert.KernelIdeal.Final.aW2 m c) (Cert.KernelIdeal.Final.ab2 m c) 0,
    fun c => Cert.Mlp.outRow (Cert.KernelIdeal.Final.aX m c) (Cert.KernelIdeal.Final.aW1 m c) (Cert.KernelIdeal.Final.ab1 m c)
      (Cert.KernelIdeal.Final.aW2 m c) (Cert.KernelIdeal.Final.ab2 m c) 1,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.RefValue.v14_eq, (hagree c).1, (hagree c).2.1, (hagree c).2.2.1,
      (hagree c).2.2.2.1, (hagree c).2.2.2.2]
  · rw [Cert.ReferenceIdeal.Read.val_main_v16_eq, Cert.RefValue.v16_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
